-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S288x96 : S_.BroadcastsInDim S288x96 (![] : Fin 0 → Fin S288x96.rank)
  reducesTo_S288x96_S_d0_1 : S288x96.ReducesTo [0, 1] S_

variable [Facts]

def fn_part2 {F : FTy → Type} [FloatOps F] (main_arg8 : FVec F S96 .f32) (main_arg9 : FVec F S96x96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg5 : FVec F S96x96 .f32) (main_arg6 : FVec F S96 .f32) (main_arg7 : FVec F S288x96 .f32) (main_arg8 : FVec F S96 .f32) (main_arg9 : FVec F S96x96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S288x96 .f32 := Host.absf main_arg7
  let main_cst_10 : FVec F S_ .f32 := constant S_ .f32 0x7F800000#32
  let main_v30 : FVec F S288x96 .f32 := broadcastInDim S288x96 ![] bcast_S_S288x96 main_cst_10
  let main_v31 : IVec S288x96 1 := cmpf .olt main_v29 main_v30
  let main_c_11 : IVec S_ 1 := constantI S_ 1 1#1
  let main_v32 : IVec S_ 1 := (fun x v => Host.reduce IntOp.andi x v reducesTo_S288x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S800000x96 .f32) (main_arg3 : FVec F S192x96 .f32) (main_arg4 : FVec F S96 .f32) (main_arg5 : FVec F S96x96 .f32) (main_arg6 : FVec F S96 .f32) (main_arg7 : FVec F S288x96 .f32) (main_arg8 : FVec F S96 .f32) (main_arg9 : FVec F S96x96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg2
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S192x96 .f32 := Host.absf main_arg3
  let main_cst_2 : FVec F S_ .f32 := constant S_ .f32 0x7F800000#32
  let main_v10 : FVec F S192x96 .f32 := broadcastInDim S192x96 ![] bcast_S_S192x96 main_cst_2
  let main_v11 : IVec S192x96 1 := cmpf .olt main_v9 main_v10
  let main_c_3 : IVec S_ 1 := constantI S_ 1 1#1
  let main_v12 : IVec S_ 1 := (fun x v => Host.reduce IntOp.andi x v reducesTo_S192x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x96 : Shape := ⟨2, ![1, 96]⟩
abbrev S5000x96 : Shape := ⟨2, ![5000, 96]⟩
abbrev S8000x96 : Shape := ⟨2, ![8000, 96]⟩

abbrev nBuf : Space → Nat
  | .hbm => 43
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x96, .f32⟩
  | .hbm, ⟨3, _⟩ => ⟨S192x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S288x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000x96, .f32⟩
  | .hbm, ⟨17, _⟩ => ⟨S800000x1, .i32⟩
  | .hbm, ⟨18, _⟩ => ⟨S50000x96, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x96, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S1x96, .f32⟩
  | .hbm, ⟨38, _⟩ => ⟨S1x96, .f32⟩
  | .hbm, ⟨39, _⟩ => ⟨S50000x96, .f32⟩
  | .hbm, ⟨40, _⟩ => ⟨S1x96, .f32⟩
  | .hbm, ⟨41, _⟩ => ⟨S1x96, .f32⟩
  | .hbm, ⟨42, _⟩ => ⟨S800000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S192x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S8000x96, .f32⟩
  | .local _ .vmem, ⟨11, _⟩ => ⟨S8000x96, .f32⟩
  | .local _ .vmem, ⟨12, _⟩ => ⟨S8000x96, .f32⟩
  | .local _ .vmem, ⟨13, _⟩ => ⟨S8000x96, .f32⟩
  | .local _ .vmem, ⟨14, _⟩ => ⟨S8000x96, .f32⟩
  | .local _ .vmem, ⟨15, _⟩ => ⟨S8000x96, .f32⟩
  | .local _ .vmem, ⟨16, _⟩ => ⟨S288x96, .f32⟩
  | .local _ .vmem, ⟨17, _⟩ => ⟨S1x96, .f32⟩
  | .local _ .vmem, ⟨18, _⟩ => ⟨S96x96, .f32⟩
  | .local _ .vmem, ⟨19, _⟩ => ⟨S1x96, .f32⟩
  | .local _ .vmem, ⟨20, _⟩ => ⟨S8000x96, .f32⟩
  | .local _ .vmem, ⟨21, _⟩ => ⟨S8000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S288x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x96 : S_.BroadcastsInDim S50000x96 (![] : Fin 0 → Fin S50000x96.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  shapeCasts_S5000x96_S5000x96 : S5000x96.ShapeCasts S5000x96
  inb_S192x96_S96x96_0_0 : ∀ a, (![0, 0] : Fin 2 → Nat) a + S96x96.size a ≤ S192x96.size a
  h_S96x96 : 0 < S96x96.numel
  inb_S192x96_S96x96_96_0 : ∀ a, (![96, 0] : Fin 2 → Nat) a + S96x96.size a ≤ S192x96.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  inb_S288x96_S96x96_0_0 : ∀ a, (![0, 0] : Fin 2 → Nat) a + S96x96.size a ≤ S288x96.size a
  inb_S288x96_S96x96_96_0 : ∀ a, (![96, 0] : Fin 2 → Nat) a + S96x96.size a ≤ S288x96.size a
  inb_S288x96_S96x96_192_0 : ∀ a, (![192, 0] : Fin 2 → Nat) a + S96x96.size a ≤ S288x96.size a
  broadcasts_S1x96_S8000x96 : S1x96.Broadcasts S8000x96
  scatter_S50000x96_S800000x1_S800000x96_1_0_0_1_wf : ScatterDims.WF S50000x96 S800000x1 S800000x96 [1] [0] [0] 1
  gather_S50000x96_S800000x1_S800000x96_1_0_n_n_0_1_196_wf : GatherDims.WF S50000x96 S800000x1 S800000x96 [1] [0] [] [0] [] 1 ![1, 96]
  dot_S5000x96_S96x96_S5000x96_1_0_0_1_n_n_wf : DotDims.WF S5000x96 S96x96 S5000x96 [1] [0] [0] [1] [] []
  dot_S8000x96_S96x96_S8000x96_1_0_0_1_n_n_wf : DotDims.WF S8000x96 S96x96 S8000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x96.size a ≤ S192x96.size a
  hwx0_2 : ∀ i : grid0.Coords, EltTy.bits .f32 = 32 ∨ (Rect.block (s := S192x96) S192x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x96.size a ≤ S800000x96.size a
  hwx1_0 : ∀ i : grid1.Coords, EltTy.bits .f32 = 32 ∨ (Rect.block (s := S800000x96) S8000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x96.size a ≤ S800000x96.size a
  hwx1_1 : ∀ i : grid1.Coords, EltTy.bits .f32 = 32 ∨ (Rect.block (s := S800000x96) S8000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x96.size a ≤ S800000x96.size a
  hwx1_2 : ∀ i : grid1.Coords, EltTy.bits .f32 = 32 ∨ (Rect.block (s := S800000x96) S8000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S288x96.size a ≤ S288x96.size a
  hwx1_3 : ∀ i : grid1.Coords, EltTy.bits .f32 = 32 ∨ (Rect.block (s := S288x96) S288x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .f32 = 32 ∨ (Rect.block (s := S96x96) S96x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x96.size a ≤ S800000x96.size a
  hwx1_7 : ∀ i : grid1.Coords, EltTy.bits .f32 = 32 ∨ (Rect.block (s := S800000x96) S8000x96.size (cc1_transform_7 i) (hinb1_7 i)).WholeWords (EltTy.packing .f32)

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S8000x96_S96x96_S8000x96_1_0_0_1_n_n : DotDims S8000x96 S96x96 S8000x96 where
  lhsContracting := [1]
  rhsContracting := [0]
  lhsNonContracting := [0]
  rhsNonContracting := [1]
  lhsBatch := []
  rhsBatch := []
  wf := dot_S8000x96_S96x96_S8000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S8000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S288x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S8000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x192 : Shape := ⟨2, ![50000, 192]⟩
abbrev S1x96 : Shape := ⟨2, ![1, 96]⟩
abbrev S800000x288 : Shape := ⟨2, ![800000, 288]⟩

abbrev nBuf : Space → Nat
  | .hbm => 63
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x96, .f32⟩
  | .hbm, ⟨3, _⟩ => ⟨S192x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S288x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x96, .f32⟩
  | .hbm, ⟨15, _⟩ => ⟨S800000x1, .i32⟩
  | .hbm, ⟨16, _⟩ => ⟨S50000x96, .f32⟩
  | .hbm, ⟨17, _⟩ => ⟨S50000x192, .f32⟩
  | .hbm, ⟨18, _⟩ => ⟨S50000x96, .f32⟩
  | .hbm, ⟨19, _⟩ => ⟨S1x96, .f32⟩
  | .hbm, ⟨20, _⟩ => ⟨S50000x96, .f32⟩
  | .hbm, ⟨21, _⟩ => ⟨S50000x96, .f32⟩
  | .hbm, ⟨22, _⟩ => ⟨S_, .f32⟩
  | .hbm, ⟨23, _⟩ => ⟨S50000x96, .f32⟩
  | .hbm, ⟨24, _⟩ => ⟨S50000x96, .f32⟩
  | .hbm, ⟨25, _⟩ => ⟨S50000x96, .f32⟩
  | .hbm, ⟨26, _⟩ => ⟨S1x96, .f32⟩
  | .hbm, ⟨27, _⟩ => ⟨S50000x96, .f32⟩
  | .hbm, ⟨28, _⟩ => ⟨S50000x96, .f32⟩
  | .hbm, ⟨29, _⟩ => ⟨S1x800000, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x96, .f32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x96, .f32⟩
  | .hbm, ⟨51, _⟩ => ⟨S800000x288, .f32⟩
  | .hbm, ⟨52, _⟩ => ⟨S800000x96, .f32⟩
  | .hbm, ⟨53, _⟩ => ⟨S1x96, .f32⟩
  | .hbm, ⟨54, _⟩ => ⟨S800000x96, .f32⟩
  | .hbm, ⟨55, _⟩ => ⟨S800000x96, .f32⟩
  | .hbm, ⟨56, _⟩ => ⟨S_, .f32⟩
  | .hbm, ⟨57, _⟩ => ⟨S800000x96, .f32⟩
  | .hbm, ⟨58, _⟩ => ⟨S800000x96, .f32⟩
  | .hbm, ⟨59, _⟩ => ⟨S800000x96, .f32⟩
  | .hbm, ⟨60, _⟩ => ⟨S1x96, .f32⟩
  | .hbm, ⟨61, _⟩ => ⟨S800000x96, .f32⟩
  | .hbm, ⟨62, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  concatenates_S50000x96_S50000x96_S50000x192_d1 : Shape.Concatenates [S50000x96, S50000x96] S50000x192 1
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S2x800000_S1x800000_0_0 : S2x800000.Slices ![0, 0] S1x800000
  bcast_S_S800000 : S_.BroadcastsInDim S800000 (![] : Fin 0 → Fin S800000.rank)
  concatenates_S800000x96_S800000x96_S800000x96_S800000x288_d1 : Shape.Concatenates [S800000x96, S800000x96, S800000x96] S800000x288 1
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  dot_S800000x288_S288x96_S800000x96_1_0_0_1_n_n_wf : DotDims.WF S800000x288 S288x96 S800000x96 [1] [0] [0] [1] [] []
  dot_S800000x96_S96x96_S800000x96_1_0_0_1_n_n_wf : DotDims.WF S800000x96 S96x96 S800000x96 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x288_S288x96_S800000x96_1_0_0_1_n_n : DotDims S800000x288 S288x96 S800000x96 where
  lhsContracting := [1]
  rhsContracting := [0]
  lhsNonContracting := [0]
  rhsNonContracting := [1]
  lhsBatch := []
  rhsBatch := []
  wf := dot_S800000x288_S288x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf

class Facts : Prop extends Facts₀ where

variable [Facts]
-- ==== Proof.Spec.lean ====
/-
  Two-layer perceptrons over 96 features, on the extended reals, row by row.

  A row of the first layer's input is either ONE vector of 192 (or 288) entries, two (or three) 96-entry pieces laid
  side by side, multiplied by the whole first weight matrix, or the pieces multiplied one by one with the matching
  96-row bands of that matrix and the products added. A finite sum over the joined axis splits into the sums over
  its pieces by associativity and commutativity of addition alone, so the two readings agree on every extended real
  (no entry need be finite).
-/
import Idealize.ShloMosaic.PureOps.Ideal
import Mathlib.Algebra.BigOperators.Fin

noncomputable section

open scoped BigOperators

namespace Cert.Spec

/-- Two 96-entry rows side by side. -/
def cat2 (a b : Fin 96 → EReal) : Fin 192 → EReal := fun j =>
  if h : j.val < 96 then a ⟨j.val, h⟩ else b ⟨j.val - 96, by have := j.isLt; omega⟩

/-- Three 96-entry rows side by side. -/
def cat3 (a b c : Fin 96 → EReal) : Fin 288 → EReal := fun j =>
  if h : j.val < 96 then a ⟨j.val, h⟩
  else if h2 : j.val < 192 then b ⟨j.val - 96, by omega⟩
  else c ⟨j.val - 192, by have := j.isLt; omega⟩

/-- The second layer on a hidden pre-activation row `h`: the rectifier against `z`, the product with `W2`, the bias. -/
def layer2 (z : EReal) (h : Fin 96 → EReal) (W2 : Fin 96 → Fin 96 → EReal) (b2 : Fin 96 → EReal) (q : Fin 96) : EReal :=
  (∑ k : Fin 96, max (h k) z * W2 k q) + b2 q

/-- A sum over 192 entries is the sum over the first 96 plus the sum over the last 96. -/
theorem sum_192 (f : Fin 192 → EReal) :
    (∑ j : Fin 192, f j) = (∑ j : Fin 96, f ⟨j.val, by have := j.isLt; omega⟩) + ∑ j : Fin 96, f ⟨96 + j.val, by have := j.isLt; omega⟩ :=
  Fin.sum_univ_add (M := EReal) (a := 96) (b := 96) f

/-- A sum over 288 entries is the sum of the sums over its three bands of 96. -/
theorem sum_288 (f : Fin 288 → EReal) :
    (∑ j : Fin 288, f j) = ((∑ j : Fin 96, f ⟨j.val, by have := j.isLt; omega⟩) + ∑ j : Fin 96, f ⟨96 + j.val, by have := j.isLt; omega⟩)
      + ∑ j : Fin 96, f ⟨192 + j.val, by have := j.isLt; omega⟩ := by
  rw [show (∑ j : Fin 288, f j) = (∑ j : Fin 192, f ⟨j.val, by have := j.isLt; omega⟩) + ∑ j : Fin 96, f ⟨192 + j.val, by have := j.isLt; omega⟩ from
    Fin.sum_univ_add (M := EReal) (a := 192) (b := 96) f, sum_192]

/-- The node update, the first layer piece by piece: `x` against the band `Wa`, `agg` against the band `Wb`. -/
def nodeBands (z : EReal) (x agg : Fin 96 → EReal) (Wa Wb : Fin 96 → Fin 96 → EReal) (b1 : Fin 96 → EReal)
    (W2 : Fin 96 → Fin 96 → EReal) (b2 : Fin 96 → EReal) (q : Fin 96) : EReal :=
  layer2 z (fun k => ((∑ j : Fin 96, x j * Wa j k) + ∑ j : Fin 96, agg j * Wb j k) + b1 k) W2 b2 q

/-- The node update, the first layer on the joined row against the whole matrix. -/
def nodeJoined (z : EReal) (x agg : Fin 96 → EReal) (W1 : Fin 192 → Fin 96 → EReal) (b1 : Fin 96 → EReal)
    (W2 : Fin 96 → Fin 96 → EReal) (b2 : Fin 96 → EReal) (q : Fin 96) : EReal :=
  layer2 z (fun k => (∑ j : Fin 192, cat2 x agg j * W1 j k) + b1 k) W2 b2 q

theorem nodeJoined_eq_bands (z : EReal) (x agg : Fin 96 → EReal) (W1 : Fin 192 → Fin 96 → EReal) (b1 : Fin 96 → EReal)
    (W2 : Fin 96 → Fin 96 → EReal) (b2 : Fin 96 → EReal) (q : Fin 96) :
    nodeJoined z x agg W1 b1 W2 b2 q
      = nodeBands z x agg (fun j k => W1 ⟨j.val, by have := j.isLt; omega⟩ k) (fun j k => W1 ⟨96 + j.val, by have := j.isLt; omega⟩ k) b1 W2 b2 q := by
  unfold nodeJoined nodeBands
  refine congrArg (fun h => layer2 z h W2 b2 q) (funext fun k => ?_)
  rw [sum_192]
  refine congrArg (· + b1 k) (congrArg₂ (· + ·) (Finset.sum_congr rfl fun j _ => ?_) (Finset.sum_congr rfl fun j _ => ?_))
  · unfold cat2; rw [dif_pos (show j.val < 96 from j.isLt)]
  · unfold cat2
    rw [dif_neg (show ¬ (96 + j.val < 96) by omega)]
    exact congrArg (fun t => agg t * _) (Fin.ext (by show 96 + j.val - 96 = j.val; omega))

/-- The band-by-band node update depends on its arguments only through their entries. -/
theorem nodeBands_congr {z : EReal} {x x' agg agg' : Fin 96 → EReal} {Wa Wa' Wb Wb' : Fin 96 → Fin 96 → EReal} {b1 b1' : Fin 96 → EReal}
    {W2 W2' : Fin 96 → Fin 96 → EReal} {b2 b2' : Fin 96 → EReal} (q : Fin 96)
    (hx : ∀ j, x j = x' j) (ha : ∀ j, agg j = agg' j) (hWa : ∀ j k, Wa j k = Wa' j k) (hWb : ∀ j k, Wb j k = Wb' j k)
    (hb1 : ∀ k, b1 k = b1' k) (hW2 : ∀ k q, W2 k q = W2' k q) (hb2 : ∀ k, b2 k = b2' k) :
    nodeBands z x agg Wa Wb b1 W2 b2 q = nodeBands z x' agg' Wa' Wb' b1' W2' b2' q := by
  obtain rfl : x = x' := funext hx
  obtain rfl : agg = agg' := funext ha
  obtain rfl : Wa = Wa' := funext fun j => funext (hWa j)
  obtain rfl : Wb = Wb' := funext fun j => funext (hWb j)
  obtain rfl : b1 = b1' := funext hb1
  obtain rfl : W2 = W2' := funext fun k => funext (hW2 k)
  obtain rfl : b2 = b2' := funext hb2
  rfl

/-- The edge update, the first layer piece by piece. -/
def edgeBands (z : EReal) (s d e : Fin 96 → EReal) (Wa Wb Wc : Fin 96 → Fin 96 → EReal) (b1 : Fin 96 → EReal)
    (W2 : Fin 96 → Fin 96 → EReal) (b2 : Fin 96 → EReal) (q : Fin 96) : EReal :=
  layer2 z (fun k => (((∑ j : Fin 96, s j * Wa j k) + ∑ j : Fin 96, d j * Wb j k) + ∑ j : Fin 96, e j * Wc j k) + b1 k) W2 b2 q

/-- The band-by-band edge update depends on its arguments only through their entries. -/
theorem edgeBands_congr {z : EReal} {s s' d d' e e' : Fin 96 → EReal} {Wa Wa' Wb Wb' Wc Wc' : Fin 96 → Fin 96 → EReal} {b1 b1' : Fin 96 → EReal}
    {W2 W2' : Fin 96 → Fin 96 → EReal} {b2 b2' : Fin 96 → EReal} (q : Fin 96)
    (hs : ∀ j, s j = s' j) (hd : ∀ j, d j = d' j) (he : ∀ j, e j = e' j) (hWa : ∀ j k, Wa j k = Wa' j k) (hWb : ∀ j k, Wb j k = Wb' j k)
    (hWc : ∀ j k, Wc j k = Wc' j k) (hb1 : ∀ k, b1 k = b1' k) (hW2 : ∀ k q, W2 k q = W2' k q) (hb2 : ∀ k, b2 k = b2' k) :
    edgeBands z s d e Wa Wb Wc b1 W2 b2 q = edgeBands z s' d' e' Wa' Wb' Wc' b1' W2' b2' q := by
  obtain rfl : s = s' := funext hs
  obtain rfl : d = d' := funext hd
  obtain rfl : e = e' := funext he
  obtain rfl : Wa = Wa' := funext fun j => funext (hWa j)
  obtain rfl : Wb = Wb' := funext fun j => funext (hWb j)
  obtain rfl : Wc = Wc' := funext fun j => funext (hWc j)
  obtain rfl : b1 = b1' := funext hb1
  obtain rfl : W2 = W2' := funext fun k => funext (hW2 k)
  obtain rfl : b2 = b2' := funext hb2
  rfl

/-- The edge update, the first layer on the joined row against the whole matrix. -/
def edgeJoined (z : EReal) (s d e : Fin 96 → EReal) (W1 : Fin 288 → Fin 96 → EReal) (b1 : Fin 96 → EReal)
    (W2 : Fin 96 → Fin 96 → EReal) (b2 : Fin 96 → EReal) (q : Fin 96) : EReal :=
  layer2 z (fun k => (∑ j : Fin 288, cat3 s d e j * W1 j k) + b1 k) W2 b2 q

theorem edgeJoined_eq_bands (z : EReal) (s d e : Fin 96 → EReal) (W1 : Fin 288 → Fin 96 → EReal) (b1 : Fin 96 → EReal)
    (W2 : Fin 96 → Fin 96 → EReal) (b2 : Fin 96 → EReal) (q : Fin 96) :
    edgeJoined z s d e W1 b1 W2 b2 q
      = edgeBands z s d e (fun j k => W1 ⟨j.val, by have := j.isLt; omega⟩ k) (fun j k => W1 ⟨96 + j.val, by have := j.isLt; omega⟩ k)
          (fun j k => W1 ⟨192 + j.val, by have := j.isLt; omega⟩ k) b1 W2 b2 q := by
  unfold edgeJoined edgeBands
  refine congrArg (fun h => layer2 z h W2 b2 q) (funext fun k => ?_)
  rw [sum_288]
  refine congrArg (· + b1 k) (congrArg₂ (· + ·) (congrArg₂ (· + ·) (Finset.sum_congr rfl fun j _ => ?_) (Finset.sum_congr rfl fun j _ => ?_))
    (Finset.sum_congr rfl fun j _ => ?_))
  · unfold cat3; rw [dif_pos (show j.val < 96 from j.isLt)]
  · unfold cat3
    rw [dif_neg (show ¬ (96 + j.val < 96) by omega), dif_pos (show 96 + j.val < 192 by have := j.isLt; omega)]
    exact congrArg (fun t => d t * _) (Fin.ext (by show 96 + j.val - 96 = j.val; omega))
  · unfold cat3
    rw [dif_neg (show ¬ (192 + j.val < 96) by omega), dif_neg (show ¬ (192 + j.val < 192) by omega)]
    exact congrArg (fun t => e t * _) (Fin.ext (by show 192 + j.val - 192 = j.val; omega))

end Cert.Spec

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.NodePayload.lean ====
/-
  The node kernel's stored value at an entry (p, q) of its block of 5000 rows: the two products of the first layer
  (the block of x against the upper band of the first weight matrix, the block of the aggregate against the lower band),
  each a sum over 96 features, added, the bias row added, rectified, multiplied with the second weight matrix and
  the second bias row added. Changes of float format are the identity on the extended reals.
-/
import proofs.«115371_j15642270892348_1_alg».proof.Proof.Gen.KernelIdeal.Skeleton
import proofs.«115371_j15642270892348_1_alg».proof.Proof.Spec
import proofs.«115371_j15642270892348_1_alg».proof.Proof.LibPlainDot
import proofs.«115371_j15642270892348_1_alg».proof.Proof.LibRowBias
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

theorem node_pay_apply (v0 v2 : Vec Ideal S5000x96 .f32) (v5 v7 : Vec Ideal S96x96 .f32) (v12 : Vec Ideal S1x96 .f32)
    (v19 : Vec Ideal S96x96 .f32) (v22 : Vec Ideal S1x96 .f32) (p : Fin 5000) (q : Fin 96) :
    k0_pay1 (F := Ideal) v0 v2 v5 v7 v12 v19 v22 (ix2 p q)
      = Spec.nodeBands (Ideal.ofBits .f32 0x00000000#32) (fun j => v0 (ix2 p j)) (fun j => v2 (ix2 p j)) (fun j k => v5 (ix2 j k))
          (fun j k => v7 (ix2 j k)) (fun k => v12 (ix2 (0 : Fin 1) k)) (fun k q => v19 (ix2 k q)) (fun k => v22 (ix2 (0 : Fin 1) k)) q := by
  unfold k0_pay1 Spec.nodeBands Spec.layer2
  dsimp only
  refine congrArg₂ (· + ·) ?_ ?_
  · refine (Cert.PlainDot.matmul_zero_apply (M := 5000) (K := 96) (N := 96) none _ _ p q).trans ?_
    refine Finset.sum_congr rfl fun k _ => ?_
    refine congrArg (· * v19 (ix2 k q)) ?_
    refine congrArg (max · (Ideal.ofBits .f32 0x00000000#32)) ?_
    refine congrArg₂ (· + ·) (congrArg₂ (· + ·) ?_ ?_) ?_
    · exact Cert.PlainDot.matmul_zero_apply (M := 5000) (K := 96) (N := 96) none _ _ p k
    · refine (Cert.PlainDot.matmul_zero_apply (M := 5000) (K := 96) (N := 96) none _ _ p k).trans ?_
      refine Finset.sum_congr rfl fun j _ => ?_
      exact congrArg (· * v7 (ix2 j k)) (congrFun (shapeCast_self v2 shapeCasts_S5000x96_S5000x96) (ix2 p j))
    · exact (Cert.RowBias.rows_apply _ broadcasts_S1x96_S5000x96 p k).trans (congrFun (shapeCast_self v12 shapeCasts_S1x96_S1x96) _)
  · exact (Cert.RowBias.rows_apply _ broadcasts_S1x96_S5000x96 p q).trans (congrFun (shapeCast_self v22 shapeCasts_S1x96_S1x96) _)

end Cert.KernelIdeal.Payload

end
-- ==== Proof.NodeArray.lean ====
/-
  The node result array after the first kernel region, as one function of the arrays the region finds.

  The region's grid has ten points; point t reads rows 5000 t … 5000 t + 4999 of x and of the aggregate, the whole
  weight and bias arrays, and writes back rows 5000 t … 5000 t + 4999 of the result. Each written entry (r, q) is the
  two-layer perceptron of row r (the first layer band by band: the upper 96 rows of the first weight matrix against x,
  the lower 96 against the aggregate), so the ten blocks, which tile the 50000 rows, leave the array holding that
  function of the row index everywhere.
-/
import proofs.«115371_j15642270892348_1_alg».proof.Proof.Gen.KernelIdeal.Frame
import proofs.«115371_j15642270892348_1_alg».proof.Proof.NodePayload
import Idealize.ShloMosaic.Lib.Pipeline.Value
import Idealize.ShloMosaic.Lib.ValueIdx

set_option maxRecDepth 16384

noncomputable section

open scoped BigOperators

namespace Cert.KernelIdeal.NodeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node update of every row: entry (r, q) from row r of `x` and of `agg`, the two bands of `W1`, and the rest. -/
def nodeArr (x agg : FVec Ideal S50000x96 .f32) (W1 : FVec Ideal S192x96 .f32) (b1 : FVec Ideal S1x96 .f32)
    (W2 : FVec Ideal S96x96 .f32) (b2 : FVec Ideal S1x96 .f32) : S50000x96.Idx → EReal := fun i =>
  Spec.nodeBands (Ideal.ofBits .f32 0x00000000#32)
    (fun j => x (ix2 (⟨(i 0).val, idx2_lt0 i⟩ : Fin 50000) j)) (fun j => agg (ix2 (⟨(i 0).val, idx2_lt0 i⟩ : Fin 50000) j))
    (fun j k => W1 (ix2 (⟨j.val, by have := j.isLt; omega⟩ : Fin 192) k)) (fun j k => W1 (ix2 (⟨96 + j.val, by have := j.isLt; omega⟩ : Fin 192) k))
    (fun k => b1 (ix2 (0 : Fin 1) k)) (fun k q => W2 (ix2 k q)) (fun k => b2 (ix2 (0 : Fin 1) k)) (⟨(i 1).val, idx2_lt1 i⟩ : Fin 96)

/-- The array at the index whose coordinates are r and q. -/
theorem nodeArr_at (x agg : FVec Ideal S50000x96 .f32) (W1 : FVec Ideal S192x96 .f32) (b1 : FVec Ideal S1x96 .f32)
    (W2 : FVec Ideal S96x96 .f32) (b2 : FVec Ideal S1x96 .f32) (i : S50000x96.Idx) (r : Fin 50000) (q : Fin 96)
    (h0 : (i 0).val = r.val) (h1 : (i 1).val = q.val) :
    nodeArr x agg W1 b1 W2 b2 i = Spec.nodeBands (Ideal.ofBits .f32 0x00000000#32)
      (fun j => x (ix2 r j)) (fun j => agg (ix2 r j))
      (fun j k => W1 (ix2 (⟨j.val, by have := j.isLt; omega⟩ : Fin 192) k)) (fun j k => W1 (ix2 (⟨96 + j.val, by have := j.isLt; omega⟩ : Fin 192) k))
      (fun k => b1 (ix2 (0 : Fin 1) k)) (fun k q => W2 (ix2 k q)) (fun k => b2 (ix2 (0 : Fin 1) k)) q := by
  obtain rfl : i = ix2 r q := funext fun a => Fin.ext (by
    match a with
    | ⟨0, _⟩ => exact h0
    | ⟨1, _⟩ => exact h1)
  rfl

/-- The printed index maps over the grid: the row-blocked windows sit at block t, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The blocks, each named at its literal type. -/
abbrev xblk (c : Dev nD) (t : Fin cfg0.N) : Vec Ideal S5000x96 .f32 := iblk0 V c 0 t
abbrev ablk (c : Dev nD) (t : Fin cfg0.N) : Vec Ideal S5000x96 .f32 := iblk0 V c 1 t
abbrev w1blk (c : Dev nD) (t : Fin cfg0.N) : Vec Ideal S192x96 .f32 := iblk0 V c 2 t
abbrev b1blk (c : Dev nD) (t : Fin cfg0.N) : Vec Ideal S1x96 .f32 := iblk0 V c 3 t
abbrev w2blk (c : Dev nD) (t : Fin cfg0.N) : Vec Ideal S96x96 .f32 := iblk0 V c 4 t
abbrev b2blk (c : Dev nD) (t : Fin cfg0.N) : Vec Ideal S1x96 .f32 := iblk0 V c 5 t

theorem row_lt (t : Fin cfg0.N) (p : Fin 5000) : t.val * 5000 + p.val < 50000 := by
  have := t.isLt; have : cfg0.N = 10 := N_0; have := p.isLt; omega

/-- Row p of point t's block of x is row 5000 t + p of x. -/
theorem xblk_apply (c : Dev nD) (t : Fin cfg0.N) (p : Fin 5000) (j : Fin 96) :
    xblk V c t (ix2 p j) = V c main_arg0 (ix2 (⟨t.val * 5000 + p.val, row_lt t p⟩ : Fin 50000) j) := by
  obtain ⟨e0, e1, -⟩ := idx_facts t
  show V c main_arg0 (((cfg0.win 0).blk t).view.emb (ix2 p j)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 96 + 1 * j.val = j.val; omega

/-- The same for the aggregate. -/
theorem ablk_apply (c : Dev nD) (t : Fin cfg0.N) (p : Fin 5000) (j : Fin 96) :
    ablk V c t (ix2 p j) = V c main_v6 (ix2 (⟨t.val * 5000 + p.val, row_lt t p⟩ : Fin 50000) j) := by
  obtain ⟨-, -, e0, e1, -⟩ := idx_facts t
  show V c main_v6 (((cfg0.win 1).blk t).view.emb (ix2 p j)) = _
  refine congrArg (V c main_v6) (funext fun a => Fin.ext ?_)
  match a with
  | ⟨0, _⟩ => show win0_1.index t (0 : Fin 2) * 5000 + 1 * p.val = t.val * 5000 + p.val; omega
  | ⟨1, _⟩ => show win0_1.index t (1 : Fin 2) * 96 + 1 * j.val = j.val; omega

/-- The upper band of the first weight matrix, loaded from its block, which is the whole matrix. -/
theorem w1a_apply (c : Dev nD) (t : Fin cfg0.N) (j k : Fin 96) :
    View.ld (w1blk V c t) r0_1 (ix2 j k) = V c main_arg3 (ix2 (⟨j.val, by have := j.isLt; omega⟩ : Fin 192) k) := by
  obtain ⟨-, -, -, -, e0, e1, -⟩ := idx_facts t
  show V c main_arg3 (((cfg0.win 2).blk t).view.emb (r0_1.idx (ix2 j k))) = _
  refine congrArg (V c main_arg3) (funext fun a => Fin.ext ?_)
  match a with
  | ⟨0, _⟩ => show win0_2.index t (0 : Fin 2) * 192 + 1 * (0 + 1 * j.val) = j.val; omega
  | ⟨1, _⟩ => show win0_2.index t (1 : Fin 2) * 96 + 1 * (0 + 1 * k.val) = k.val; omega

/-- The lower band. -/
theorem w1b_apply (c : Dev nD) (t : Fin cfg0.N) (j k : Fin 96) :
    View.ld (w1blk V c t) r0_2 (ix2 j k) = V c main_arg3 (ix2 (⟨96 + j.val, by have := j.isLt; omega⟩ : Fin 192) k) := by
  obtain ⟨-, -, -, -, e0, e1, -⟩ := idx_facts t
  show V c main_arg3 (((cfg0.win 2).blk t).view.emb (r0_2.idx (ix2 j k))) = _
  refine congrArg (V c main_arg3) (funext fun a => Fin.ext ?_)
  match a with
  | ⟨0, _⟩ => show win0_2.index t (0 : Fin 2) * 192 + 1 * (96 + 1 * j.val) = 96 + j.val; omega
  | ⟨1, _⟩ => show win0_2.index t (1 : Fin 2) * 96 + 1 * (0 + 1 * k.val) = k.val; omega

theorem b1blk_apply (c : Dev nD) (t : Fin cfg0.N) (k : Fin 96) :
    b1blk V c t (ix2 (0 : Fin 1) k) = V c main_v21 (ix2 (0 : Fin 1) k) := by
  obtain ⟨-, -, -, -, -, -, e0, e1, -⟩ := idx_facts t
  show V c main_v21 (((cfg0.win 3).blk t).view.emb (ix2 (0 : Fin 1) k)) = _
  refine congrArg (V c main_v21) (funext fun a => Fin.ext ?_)
  match a with
  | ⟨0, _⟩ => show win0_3.index t (0 : Fin 2) * 1 + 1 * 0 = 0; omega
  | ⟨1, _⟩ => show win0_3.index t (1 : Fin 2) * 96 + 1 * k.val = k.val; omega

theorem w2blk_apply (c : Dev nD) (t : Fin cfg0.N) (k q : Fin 96) :
    w2blk V c t (ix2 k q) = V c main_arg5 (ix2 k q) := by
  obtain ⟨-, -, -, -, -, -, -, -, e0, e1, -⟩ := idx_facts t
  show V c main_arg5 (((cfg0.win 4).blk t).view.emb (ix2 k q)) = _
  refine congrArg (V c main_arg5) (funext fun a => Fin.ext ?_)
  match a with
  | ⟨0, _⟩ => show win0_4.index t (0 : Fin 2) * 96 + 1 * k.val = k.val; omega
  | ⟨1, _⟩ => show win0_4.index t (1 : Fin 2) * 96 + 1 * q.val = q.val; omega

theorem b2blk_apply (c : Dev nD) (t : Fin cfg0.N) (k : Fin 96) :
    b2blk V c t (ix2 (0 : Fin 1) k) = V c main_v22 (ix2 (0 : Fin 1) k) := by
  obtain ⟨-, -, -, -, -, -, -, -, -, -, e0, e1, -⟩ := idx_facts t
  show V c main_v22 (((cfg0.win 5).blk t).view.emb (ix2 (0 : Fin 1) k)) = _
  refine congrArg (V c main_v22) (funext fun a => Fin.ext ?_)
  match a with
  | ⟨0, _⟩ => show win0_5.index t (0 : Fin 2) * 1 + 1 * 0 = 0; omega
  | ⟨1, _⟩ => show win0_5.index t (1 : Fin 2) * 96 + 1 * k.val = k.val; omega

/-- What point t writes back is block t of the node update of the arrays the region finds. -/
theorem flushed_eq (c : Dev nD) (t : Fin cfg0.N) :
    (dat0 V c).flushed 6 t = ((cfg0.win 6).blk t).view.read (Elt Ideal)
      (nodeArr (V c main_arg0) (V c main_v6) (V c main_arg3) (V c main_v21) (V c main_arg5) (V c main_v22)) := by
  show (cfg0.win 6).cut (grid0.coords t) ((dat0 V c).after 6 t) = _
  rw [after0_6]
  unfold out0_6
  rw [View.canon_unit_zero hz]
  simp only [View.ld_unit_zero (S := S5000x96) hz, View.ld_unit_zero (S := S1x96) hz, View.ld_unit_zero (S := S96x96) hz]
  funext y
  obtain ⟨p, q, rfl⟩ : ∃ (p : Fin 5000) (q : Fin 96), y = ix2 p q := ⟨y 0, y 1, eq_ix2 y⟩
  obtain ⟨-, -, -, -, -, -, -, -, -, -, -, -, e0, e1⟩ := idx_facts t
  refine (Payload.node_pay_apply (xblk V c t) (ablk V c t) (View.ld (w1blk V c t) r0_1) (View.ld (w1blk V c t) r0_2) (b1blk V c t)
    (w2blk V c t) (b2blk V c t) p q).trans ?_
  refine Eq.trans ?_ (nodeArr_at (V c main_arg0) (V c main_v6) (V c main_arg3) (V c main_v21) (V c main_arg5) (V c main_v22)
    (((cfg0.win 6).blk t).view.emb (ix2 p q)) ⟨t.val * 5000 + p.val, row_lt t p⟩ q
    (by show win0_6.index t (0 : Fin 2) * 5000 + 1 * p.val = t.val * 5000 + p.val; omega)
    (by show win0_6.index t (1 : Fin 2) * 96 + 1 * q.val = q.val; omega)).symm
  exact Spec.nodeBands_congr q (fun j => xblk_apply V c t p j) (fun j => ablk_apply V c t p j) (fun j k => w1a_apply V c t j k)
    (fun j k => w1b_apply V c t j k) (fun k => b1blk_apply V c t k) (fun k q => w2blk_apply V c t k q) (fun k => b2blk_apply V c t k)

/-- An index of the result array is in point t's block iff each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v23).slice (win0_6.rect t)).set ↔ _
  rw [View.set_slice_whole, Rect.mem_set_unit]
  exact Iff.rfl

/-- The result array after the region: the node update of the arrays the region finds. -/
theorem final (c : Dev nD) : (dat0 V c).arrAt 6 cfg0.N
    = nodeArr (V c main_arg0) (V c main_v6) (V c main_arg3) (V c main_v21) (V c main_arg5) (V c main_v22) :=
  (dat0 V c).arrAt_eq_of_cover 6 _ (fun t _ => flushed_eq V c t) fun i => by
    have h0 : (i 0).val < 50000 := (i 0).isLt
    have h1 : (i 1).val < 96 := (i 1).isLt
    have hN : cfg0.N = 10 := N_0
    obtain ⟨-, -, -, -, -, -, -, -, -, -, -, -, e0, e1⟩ := idx_facts ⟨(i 0).val / 5000, by omega⟩
    refine ⟨⟨(i 0).val / 5000, by omega⟩, flush0_6 _, ?_⟩
    rw [mem_blk]
    intro a
    match a with
    | ⟨0, _⟩ =>
      show win0_6.index ⟨(i 0).val / 5000, _⟩ (0 : Fin 2) * 5000 ≤ (i 0).val ∧ (i 0).val < win0_6.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win0_6.index ⟨(i 0).val / 5000, _⟩ (1 : Fin 2) * 96 ≤ (i 1).val ∧ (i 1).val < win0_6.index ⟨(i 0).val / 5000, _⟩ (1 : Fin 2) * 96 + 96
      rw [e1]; omega

end Cert.KernelIdeal.NodeValue

end
-- ==== Proof.EdgePayload.lean ====
/-
  The edge kernel's stored value at an entry (p, q) of its block of 8000 rows: the three products of the first layer
  (the gathered source rows, the gathered destination rows and the edge features, each against its band of 96 rows
  of the first weight matrix), added left to right, the bias row added, rectified, multiplied with the second weight
  matrix and the second bias row added. Changes of float format are the identity on the extended reals.
-/
import proofs.«115371_j15642270892348_1_alg».proof.Proof.Gen.KernelIdeal.Skeleton
import proofs.«115371_j15642270892348_1_alg».proof.Proof.Spec
import proofs.«115371_j15642270892348_1_alg».proof.Proof.LibPlainDot
import proofs.«115371_j15642270892348_1_alg».proof.Proof.LibRowBias
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

theorem edge_pay_apply (v0 v3 v6 : Vec Ideal S8000x96 .f32) (v8 v10 v12 : Vec Ideal S96x96 .f32) (v19 : Vec Ideal S1x96 .f32)
    (v26 : Vec Ideal S96x96 .f32) (v29 : Vec Ideal S1x96 .f32) (p : Fin 8000) (q : Fin 96) :
    k1_pay1 (F := Ideal) v0 v3 v6 v8 v10 v12 v19 v26 v29 (ix2 p q)
      = Spec.edgeBands (Ideal.ofBits .f32 0x00000000#32) (fun j => v0 (ix2 p j)) (fun j => v3 (ix2 p j)) (fun j => v6 (ix2 p j))
          (fun j k => v8 (ix2 j k)) (fun j k => v10 (ix2 j k)) (fun j k => v12 (ix2 j k)) (fun k => v19 (ix2 (0 : Fin 1) k))
          (fun k q => v26 (ix2 k q)) (fun k => v29 (ix2 (0 : Fin 1) k)) q := by
  unfold k1_pay1 Spec.edgeBands Spec.layer2
  dsimp only
  refine congrArg₂ (· + ·) ?_ ?_
  · refine (Cert.PlainDot.matmul_zero_apply (M := 8000) (K := 96) (N := 96) none _ _ p q).trans ?_
    refine Finset.sum_congr rfl fun k _ => ?_
    refine congrArg (· * v26 (ix2 k q)) ?_
    refine congrArg (max · (Ideal.ofBits .f32 0x00000000#32)) ?_
    refine congrArg₂ (· + ·) (congrArg₂ (· + ·) (congrArg₂ (· + ·) ?_ ?_) ?_) ?_
    · refine (Cert.PlainDot.matmul_zero_apply (M := 8000) (K := 96) (N := 96) none _ _ p k).trans ?_
      refine Finset.sum_congr rfl fun j _ => ?_
      exact congrArg (· * v8 (ix2 j k)) (congrFun (shapeCast_self v0 shapeCasts_S8000x96_S8000x96) (ix2 p j))
    · refine (Cert.PlainDot.matmul_zero_apply (M := 8000) (K := 96) (N := 96) none _ _ p k).trans ?_
      refine Finset.sum_congr rfl fun j _ => ?_
      exact congrArg (· * v10 (ix2 j k)) (congrFun (shapeCast_self v3 shapeCasts_S8000x96_S8000x96) (ix2 p j))
    · exact Cert.PlainDot.matmul_zero_apply (M := 8000) (K := 96) (N := 96) none _ _ p k
    · exact (Cert.RowBias.rows_apply _ broadcasts_S1x96_S8000x96 p k).trans (congrFun (shapeCast_self v19 shapeCasts_S1x96_S1x96) _)
  · exact (Cert.RowBias.rows_apply _ broadcasts_S1x96_S8000x96 p q).trans (congrFun (shapeCast_self v29 shapeCasts_S1x96_S1x96) _)

end Cert.KernelIdeal.Payload

end
-- ==== Proof.EdgeArray.lean ====
/-
  The edge result array after the second kernel region, as one function of the arrays the region finds.

  The region's grid has a hundred points; point t reads rows 8000 t … 8000 t + 7999 of the gathered source rows, of
  the gathered destination rows and of the edge features, the whole weight and bias arrays, and writes back rows
  8000 t … 8000 t + 7999 of the result. Each written entry (r, q) is the two-layer perceptron of row r (the first
  layer band by band: rows 0–95 of the first weight matrix against the source row, rows 96–191 against the
  destination row, rows 192–287 against the edge's features), so the hundred blocks, which tile the 800000 rows,
  leave the array holding that function of the row index everywhere.
-/
import proofs.«115371_j15642270892348_1_alg».proof.Proof.Gen.KernelIdeal.Frame
import proofs.«115371_j15642270892348_1_alg».proof.Proof.EdgePayload
import Idealize.ShloMosaic.Lib.Pipeline.Value
import Idealize.ShloMosaic.Lib.ValueIdx

set_option maxRecDepth 16384

noncomputable section

open scoped BigOperators

namespace Cert.KernelIdeal.EdgeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge update of every row: entry (r, q) from row r of the three feature arrays, the three bands of `W1`, and the rest. -/
def edgeArr (s d e : FVec Ideal S800000x96 .f32) (W1 : FVec Ideal S288x96 .f32) (b1 : FVec Ideal S1x96 .f32)
    (W2 : FVec Ideal S96x96 .f32) (b2 : FVec Ideal S1x96 .f32) : S800000x96.Idx → EReal := fun i =>
  Spec.edgeBands (Ideal.ofBits .f32 0x00000000#32)
    (fun j => s (ix2 (⟨(i 0).val, idx2_lt0 i⟩ : Fin 800000) j)) (fun j => d (ix2 (⟨(i 0).val, idx2_lt0 i⟩ : Fin 800000) j))
    (fun j => e (ix2 (⟨(i 0).val, idx2_lt0 i⟩ : Fin 800000) j))
    (fun j k => W1 (ix2 (⟨j.val, by have := j.isLt; omega⟩ : Fin 288) k)) (fun j k => W1 (ix2 (⟨96 + j.val, by have := j.isLt; omega⟩ : Fin 288) k))
    (fun j k => W1 (ix2 (⟨192 + j.val, by have := j.isLt; omega⟩ : Fin 288) k))
    (fun k => b1 (ix2 (0 : Fin 1) k)) (fun k q => W2 (ix2 k q)) (fun k => b2 (ix2 (0 : Fin 1) k)) (⟨(i 1).val, idx2_lt1 i⟩ : Fin 96)

/-- The array at the index whose coordinates are r and q. -/
theorem edgeArr_at (s d e : FVec Ideal S800000x96 .f32) (W1 : FVec Ideal S288x96 .f32) (b1 : FVec Ideal S1x96 .f32)
    (W2 : FVec Ideal S96x96 .f32) (b2 : FVec Ideal S1x96 .f32) (i : S800000x96.Idx) (r : Fin 800000) (q : Fin 96)
    (h0 : (i 0).val = r.val) (h1 : (i 1).val = q.val) :
    edgeArr s d e W1 b1 W2 b2 i = Spec.edgeBands (Ideal.ofBits .f32 0x00000000#32)
      (fun j => s (ix2 r j)) (fun j => d (ix2 r j)) (fun j => e (ix2 r j))
      (fun j k => W1 (ix2 (⟨j.val, by have := j.isLt; omega⟩ : Fin 288) k)) (fun j k => W1 (ix2 (⟨96 + j.val, by have := j.isLt; omega⟩ : Fin 288) k))
      (fun j k => W1 (ix2 (⟨192 + j.val, by have := j.isLt; omega⟩ : Fin 288) k))
      (fun k => b1 (ix2 (0 : Fin 1) k)) (fun k q => W2 (ix2 k q)) (fun k => b2 (ix2 (0 : Fin 1) k)) q := by
  obtain rfl : i = ix2 r q := funext fun a => Fin.ext (by
    match a with
    | ⟨0, _⟩ => exact h0
    | ⟨1, _⟩ => exact h1)
  rfl

/-- The printed index maps over the grid: the row-blocked windows sit at block t, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The blocks, each named at its literal type. -/
abbrev sblk (c : Dev nD) (t : Fin cfg1.N) : Vec Ideal S8000x96 .f32 := iblk1 V c 0 t
abbrev dblk (c : Dev nD) (t : Fin cfg1.N) : Vec Ideal S8000x96 .f32 := iblk1 V c 1 t
abbrev eblk (c : Dev nD) (t : Fin cfg1.N) : Vec Ideal S8000x96 .f32 := iblk1 V c 2 t
abbrev w1blk (c : Dev nD) (t : Fin cfg1.N) : Vec Ideal S288x96 .f32 := iblk1 V c 3 t
abbrev b1blk (c : Dev nD) (t : Fin cfg1.N) : Vec Ideal S1x96 .f32 := iblk1 V c 4 t
abbrev w2blk (c : Dev nD) (t : Fin cfg1.N) : Vec Ideal S96x96 .f32 := iblk1 V c 5 t
abbrev b2blk (c : Dev nD) (t : Fin cfg1.N) : Vec Ideal S1x96 .f32 := iblk1 V c 6 t

theorem row_lt (t : Fin cfg1.N) (p : Fin 8000) : t.val * 8000 + p.val < 800000 := by
  have := t.isLt; have : cfg1.N = 100 := N_1; have := p.isLt; omega

/-- Row p of point t's block of the gathered source rows is their row 8000 t + p. -/
theorem sblk_apply (c : Dev nD) (t : Fin cfg1.N) (p : Fin 8000) (j : Fin 96) :
    sblk V c t (ix2 p j) = V c main_v13 (ix2 (⟨t.val * 8000 + p.val, row_lt t p⟩ : Fin 800000) j) := by
  obtain ⟨e0, e1, -⟩ := idx_facts t
  show V c main_v13 (((cfg1.win 0).blk t).view.emb (ix2 p j)) = _
  refine congrArg (V c main_v13) (funext fun a => Fin.ext ?_)
  match a with
  | ⟨0, _⟩ => show win1_0.index t (0 : Fin 2) * 8000 + 1 * p.val = t.val * 8000 + p.val; omega
  | ⟨1, _⟩ => show win1_0.index t (1 : Fin 2) * 96 + 1 * j.val = j.val; omega

/-- The same for the gathered destination rows. -/
theorem dblk_apply (c : Dev nD) (t : Fin cfg1.N) (p : Fin 8000) (j : Fin 96) :
    dblk V c t (ix2 p j) = V c main_v20 (ix2 (⟨t.val * 8000 + p.val, row_lt t p⟩ : Fin 800000) j) := by
  obtain ⟨-, -, e0, e1, -⟩ := idx_facts t
  show V c main_v20 (((cfg1.win 1).blk t).view.emb (ix2 p j)) = _
  refine congrArg (V c main_v20) (funext fun a => Fin.ext ?_)
  match a with
  | ⟨0, _⟩ => show win1_1.index t (0 : Fin 2) * 8000 + 1 * p.val = t.val * 8000 + p.val; omega
  | ⟨1, _⟩ => show win1_1.index t (1 : Fin 2) * 96 + 1 * j.val = j.val; omega

/-- The same for the edge features. -/
theorem eblk_apply (c : Dev nD) (t : Fin cfg1.N) (p : Fin 8000) (j : Fin 96) :
    eblk V c t (ix2 p j) = V c main_arg2 (ix2 (⟨t.val * 8000 + p.val, row_lt t p⟩ : Fin 800000) j) := by
  obtain ⟨-, -, -, -, e0, e1, -⟩ := idx_facts t
  show V c main_arg2 (((cfg1.win 2).blk t).view.emb (ix2 p j)) = _
  refine congrArg (V c main_arg2) (funext fun a => Fin.ext ?_)
  match a with
  | ⟨0, _⟩ => show win1_2.index t (0 : Fin 2) * 8000 + 1 * p.val = t.val * 8000 + p.val; omega
  | ⟨1, _⟩ => show win1_2.index t (1 : Fin 2) * 96 + 1 * j.val = j.val; omega

/-- The first band of the first weight matrix, loaded from its block, which is the whole matrix. -/
theorem w1a_apply (c : Dev nD) (t : Fin cfg1.N) (j k : Fin 96) :
    View.ld (w1blk V c t) r1_1 (ix2 j k) = V c main_arg7 (ix2 (⟨j.val, by have := j.isLt; omega⟩ : Fin 288) k) := by
  obtain ⟨-, -, -, -, -, -, e0, e1, -⟩ := idx_facts t
  show V c main_arg7 (((cfg1.win 3).blk t).view.emb (r1_1.idx (ix2 j k))) = _
  refine congrArg (V c main_arg7) (funext fun a => Fin.ext ?_)
  match a with
  | ⟨0, _⟩ => show win1_3.index t (0 : Fin 2) * 288 + 1 * (0 + 1 * j.val) = j.val; omega
  | ⟨1, _⟩ => show win1_3.index t (1 : Fin 2) * 96 + 1 * (0 + 1 * k.val) = k.val; omega

/-- The second band. -/
theorem w1b_apply (c : Dev nD) (t : Fin cfg1.N) (j k : Fin 96) :
    View.ld (w1blk V c t) r1_2 (ix2 j k) = V c main_arg7 (ix2 (⟨96 + j.val, by have := j.isLt; omega⟩ : Fin 288) k) := by
  obtain ⟨-, -, -, -, -, -, e0, e1, -⟩ := idx_facts t
  show V c main_arg7 (((cfg1.win 3).blk t).view.emb (r1_2.idx (ix2 j k))) = _
  refine congrArg (V c main_arg7) (funext fun a => Fin.ext ?_)
  match a with
  | ⟨0, _⟩ => show win1_3.index t (0 : Fin 2) * 288 + 1 * (96 + 1 * j.val) = 96 + j.val; omega
  | ⟨1, _⟩ => show win1_3.index t (1 : Fin 2) * 96 + 1 * (0 + 1 * k.val) = k.val; omega

/-- The third band. -/
theorem w1c_apply (c : Dev nD) (t : Fin cfg1.N) (j k : Fin 96) :
    View.ld (w1blk V c t) r1_3 (ix2 j k) = V c main_arg7 (ix2 (⟨192 + j.val, by have := j.isLt; omega⟩ : Fin 288) k) := by
  obtain ⟨-, -, -, -, -, -, e0, e1, -⟩ := idx_facts t
  show V c main_arg7 (((cfg1.win 3).blk t).view.emb (r1_3.idx (ix2 j k))) = _
  refine congrArg (V c main_arg7) (funext fun a => Fin.ext ?_)
  match a with
  | ⟨0, _⟩ => show win1_3.index t (0 : Fin 2) * 288 + 1 * (192 + 1 * j.val) = 192 + j.val; omega
  | ⟨1, _⟩ => show win1_3.index t (1 : Fin 2) * 96 + 1 * (0 + 1 * k.val) = k.val; omega

theorem b1blk_apply (c : Dev nD) (t : Fin cfg1.N) (k : Fin 96) :
    b1blk V c t (ix2 (0 : Fin 1) k) = V c main_v24 (ix2 (0 : Fin 1) k) := by
  obtain ⟨-, -, -, -, -, -, -, -, e0, e1, -⟩ := idx_facts t
  show V c main_v24 (((cfg1.win 4).blk t).view.emb (ix2 (0 : Fin 1) k)) = _
  refine congrArg (V c main_v24) (funext fun a => Fin.ext ?_)
  match a with
  | ⟨0, _⟩ => show win1_4.index t (0 : Fin 2) * 1 + 1 * 0 = 0; omega
  | ⟨1, _⟩ => show win1_4.index t (1 : Fin 2) * 96 + 1 * k.val = k.val; omega

theorem w2blk_apply (c : Dev nD) (t : Fin cfg1.N) (k q : Fin 96) :
    w2blk V c t (ix2 k q) = V c main_arg9 (ix2 k q) := by
  obtain ⟨-, -, -, -, -, -, -, -, -, -, e0, e1, -⟩ := idx_facts t
  show V c main_arg9 (((cfg1.win 5).blk t).view.emb (ix2 k q)) = _
  refine congrArg (V c main_arg9) (funext fun a => Fin.ext ?_)
  match a with
  | ⟨0, _⟩ => show win1_5.index t (0 : Fin 2) * 96 + 1 * k.val = k.val; omega
  | ⟨1, _⟩ => show win1_5.index t (1 : Fin 2) * 96 + 1 * q.val = q.val; omega

theorem b2blk_apply (c : Dev nD) (t : Fin cfg1.N) (k : Fin 96) :
    b2blk V c t (ix2 (0 : Fin 1) k) = V c main_v25 (ix2 (0 : Fin 1) k) := by
  obtain ⟨-, -, -, -, -, -, -, -, -, -, -, -, e0, e1, -⟩ := idx_facts t
  show V c main_v25 (((cfg1.win 6).blk t).view.emb (ix2 (0 : Fin 1) k)) = _
  refine congrArg (V c main_v25) (funext fun a => Fin.ext ?_)
  match a with
  | ⟨0, _⟩ => show win1_6.index t (0 : Fin 2) * 1 + 1 * 0 = 0; omega
  | ⟨1, _⟩ => show win1_6.index t (1 : Fin 2) * 96 + 1 * k.val = k.val; omega

/-- What point t writes back is block t of the edge update of the arrays the region finds. -/
theorem flushed_eq (c : Dev nD) (t : Fin cfg1.N) :
    (dat1 V c).flushed 7 t = ((cfg1.win 7).blk t).view.read (Elt Ideal)
      (edgeArr (V c main_v13) (V c main_v20) (V c main_arg2) (V c main_arg7) (V c main_v24) (V c main_arg9) (V c main_v25)) := by
  show (cfg1.win 7).cut (grid1.coords t) ((dat1 V c).after 7 t) = _
  rw [after1_7]
  unfold out1_7
  rw [View.canon_unit_zero hz]
  simp only [View.ld_unit_zero (S := S8000x96) hz, View.ld_unit_zero (S := S1x96) hz, View.ld_unit_zero (S := S96x96) hz]
  funext y
  obtain ⟨p, q, rfl⟩ : ∃ (p : Fin 8000) (q : Fin 96), y = ix2 p q := ⟨y 0, y 1, eq_ix2 y⟩
  obtain ⟨-, -, -, -, -, -, -, -, -, -, -, -, -, -, e0, e1⟩ := idx_facts t
  refine (Payload.edge_pay_apply (sblk V c t) (dblk V c t) (eblk V c t) (View.ld (w1blk V c t) r1_1) (View.ld (w1blk V c t) r1_2)
    (View.ld (w1blk V c t) r1_3) (b1blk V c t) (w2blk V c t) (b2blk V c t) p q).trans ?_
  refine Eq.trans ?_ (edgeArr_at (V c main_v13) (V c main_v20) (V c main_arg2) (V c main_arg7) (V c main_v24) (V c main_arg9) (V c main_v25)
    (((cfg1.win 7).blk t).view.emb (ix2 p q)) ⟨t.val * 8000 + p.val, row_lt t p⟩ q
    (by show win1_7.index t (0 : Fin 2) * 8000 + 1 * p.val = t.val * 8000 + p.val; omega)
    (by show win1_7.index t (1 : Fin 2) * 96 + 1 * q.val = q.val; omega)).symm
  exact Spec.edgeBands_congr q (fun j => sblk_apply V c t p j) (fun j => dblk_apply V c t p j) (fun j => eblk_apply V c t p j)
    (fun j k => w1a_apply V c t j k) (fun j k => w1b_apply V c t j k) (fun j k => w1c_apply V c t j k)
    (fun k => b1blk_apply V c t k) (fun k q => w2blk_apply V c t k q) (fun k => b2blk_apply V c t k)

/-- An index of the result array is in point t's block iff each coordinate is in the block's range on its axis. -/
theorem mem_blk (t : Fin cfg1.N) (i : S800000x96.Idx) :
    i ∈ ((cfg1.win 7).blk t).view.set ↔ ∀ a : Fin 2, win1_7.index t a * S8000x96.size a ≤ (i a).val ∧ (i a).val < win1_7.index t a * S8000x96.size a + S8000x96.size a := by
  show i ∈ ((View.whole main_v26).slice (win1_7.rect t)).set ↔ _
  rw [View.set_slice_whole, Rect.mem_set_unit]
  exact Iff.rfl

/-- The result array after the region: the edge update of the arrays the region finds. -/
theorem final (c : Dev nD) : (dat1 V c).arrAt 7 cfg1.N
    = edgeArr (V c main_v13) (V c main_v20) (V c main_arg2) (V c main_arg7) (V c main_v24) (V c main_arg9) (V c main_v25) :=
  (dat1 V c).arrAt_eq_of_cover 7 _ (fun t _ => flushed_eq V c t) fun i => by
    have h0 : (i 0).val < 800000 := (i 0).isLt
    have h1 : (i 1).val < 96 := (i 1).isLt
    have hN : cfg1.N = 100 := N_1
    obtain ⟨-, -, -, -, -, -, -, -, -, -, -, -, -, -, e0, e1⟩ := idx_facts ⟨(i 0).val / 8000, by omega⟩
    refine ⟨⟨(i 0).val / 8000, by omega⟩, flush1_7 _, ?_⟩
    rw [mem_blk]
    intro a
    match a with
    | ⟨0, _⟩ =>
      show win1_7.index ⟨(i 0).val / 8000, _⟩ (0 : Fin 2) * 8000 ≤ (i 0).val ∧ (i 0).val < win1_7.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win1_7.index ⟨(i 0).val / 8000, _⟩ (1 : Fin 2) * 96 ≤ (i 1).val ∧ (i 1).val < win1_7.index ⟨(i 0).val / 8000, _⟩ (1 : Fin 2) * 96 + 96
      rw [e1]; omega

end Cert.KernelIdeal.EdgeValue

end
-- ==== Proof.Boundary.lean ====
/-
  What the two kernel regions find in their operands, and what the program's two results end holding, in terms of the
  launch memory.

  Before the first region the host has summed the edge features into their destination rows (the aggregate), gathered the
  source and destination rows of x, and laid the two node biases out as one-row matrices; between the regions it lays the
  two edge biases out the same way. The first region writes only the node result, the second only the edge result, so
  every other buffer holds at a later boundary what it held at an earlier one.
-/
import proofs.«115371_j15642270892348_1_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- Row 0 of the edge list, the edges' source nodes, as a vector of 800000 node numbers. -/
def endpoints0 (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000
/-- Row 1 of the edge list, the edges' destination nodes. -/
def endpoints1 (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The edge features summed into their destination rows. -/
def aggregate (x1 : (⟨S2x800000, .i32⟩ : BufTy).Contents (Elt Ideal)) (x2 : (⟨S800000x96, .f32⟩ : BufTy).Contents (Elt Ideal)) :
    (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 (endpoints1 x1)) x2

/-- The rows of x at a vector of node numbers, a negative number counted from the end. -/
def rowsAt (x0 : (⟨S50000x96, .f32⟩ : BufTy).Contents (Elt Ideal)) (v : (⟨S800000, .i32⟩ : BufTy).Contents (Elt Ideal)) :
    (⟨S800000x96, .f32⟩ : BufTy).Contents (Elt Ideal) :=
  Host.gather gather_S50000x96_S800000x1_S800000x96_1_0_n_n_0_1_196 x0
    (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v))

/-! ## The first region's operands -/

theorem V1_arg0 (c : Dev nD) : V1 m ρ c main_arg0 = m ((c : Thread nD τ).loc main_arg0) := by
  show StableHlo.after hostOps0 (W0 m ρ c) (Proc.devRef .tc main_arg0) = _
  after_results <;> rfl

theorem V1_arg3 (c : Dev nD) : V1 m ρ c main_arg3 = m ((c : Thread nD τ).loc main_arg3) := by
  show StableHlo.after hostOps0 (W0 m ρ c) (Proc.devRef .tc main_arg3) = _
  after_results <;> rfl

theorem V1_arg5 (c : Dev nD) : V1 m ρ c main_arg5 = m ((c : Thread nD τ).loc main_arg5) := by
  show StableHlo.after hostOps0 (W0 m ρ c) (Proc.devRef .tc main_arg5) = _
  after_results <;> rfl

theorem V1_v6 (c : Dev nD) : V1 m ρ c main_v6 = aggregate (m ((c : Thread nD τ).loc main_arg1)) (m ((c : Thread nD τ).loc main_arg2)) := by
  show StableHlo.after hostOps0 (W0 m ρ c) (Proc.devRef .tc main_v6) = _
  after_results <;> rfl

theorem V1_v21 (c : Dev nD) : V1 m ρ c main_v21 = shapeCast S1x96 (m ((c : Thread nD τ).loc main_arg4)) shapeCasts_S96_S1x96 := by
  show StableHlo.after hostOps0 (W0 m ρ c) (Proc.devRef .tc main_v21) = _
  after_results <;> rfl

theorem V1_v22 (c : Dev nD) : V1 m ρ c main_v22 = shapeCast S1x96 (m ((c : Thread nD τ).loc main_arg6)) shapeCasts_S96_S1x96 := by
  show StableHlo.after hostOps0 (W0 m ρ c) (Proc.devRef .tc main_v22) = _
  after_results <;> rfl

/-! ## The second region's operands -/

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem V3_arg2 (c : Dev nD) : V3 m ρ c main_arg2 = m ((c : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results <;> rfl

theorem V3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results <;> rfl

theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results <;> rfl

theorem V3_v13 (c : Dev nD) : V3 m ρ c main_v13
    = rowsAt (m ((c : Thread nD τ).loc main_arg0)) (endpoints0 (m ((c : Thread nD τ).loc main_arg1))) := by
  show StableHlo.after hostOps1 (W2 m ρ c) (Proc.devRef .tc main_v13) = _
  after_results
  rw [W2_of_ne m ρ c main_v13 (by decide)]
  show StableHlo.after hostOps0 (W0 m ρ c) (Proc.devRef .tc main_v13) = _
  after_results <;> rfl

set_option maxHeartbeats 1000000 in
theorem V3_v20 (c : Dev nD) : V3 m ρ c main_v20
    = rowsAt (m ((c : Thread nD τ).loc main_arg0)) (endpoints1 (m ((c : Thread nD τ).loc main_arg1))) := by
  show StableHlo.after hostOps1 (W2 m ρ c) (Proc.devRef .tc main_v20) = _
  after_results
  rw [W2_of_ne m ρ c main_v20 (by decide)]
  show StableHlo.after hostOps0 (W0 m ρ c) (Proc.devRef .tc main_v20) = _
  after_results_simp <;> rfl

theorem V3_v24 (c : Dev nD) : V3 m ρ c main_v24 = shapeCast S1x96 (m ((c : Thread nD τ).loc main_arg8)) shapeCasts_S96_S1x96 := by
  show StableHlo.after hostOps1 (W2 m ρ c) (Proc.devRef .tc main_v24) = _
  after_results
  rw [W2_arg8]
  rfl

theorem V3_v25 (c : Dev nD) : V3 m ρ c main_v25 = shapeCast S1x96 (m ((c : Thread nD τ).loc main_arg10)) shapeCasts_S96_S1x96 := by
  show StableHlo.after hostOps1 (W2 m ρ c) (Proc.devRef .tc main_v25) = _
  after_results
  rw [W2_arg10]
  rfl

/-! ## The two results at the last boundary -/

/-- The node result: what the first region's write-backs left, untouched since. -/
theorem W4_v23 (c : Dev nD) : W4 m ρ c (Proc.devRef .tc main_v23) = (dat0 (V1 m ρ) c).arrAt 6 cfg0.N := by
  rw [W4_of_ne m ρ c main_v23 (by decide)]
  show StableHlo.after hostOps1 (W2 m ρ c) (Proc.devRef .tc main_v23) = _
  after_results
  exact W2_arr m ρ c 6

/-- The edge result: what the second region's write-backs left. -/
theorem W4_v26 (c : Dev nD) : W4 m ρ c (Proc.devRef .tc main_v26) = (dat1 (V3 m ρ) c).arrAt 7 cfg1.N :=
  W4_arr m ρ c 7

end Cert.KernelIdeal.Boundary

end
-- ==== Proof.KernelValue.lean ====
/-
  The idealized kernel program's run, its two results as functions of the launch memory.

  The node result ends at the node update of x, the aggregate of the edge features, the first-layer weights, and the
  biases laid out as rows; the edge result at the edge update of the gathered source and destination rows of x, the edge
  features, and the edge weights and biases. Both are read off the run's last segment boundary: the first region's
  write-backs cover the node result, the second's the edge result, and each region's operands are what the host
  operations before it computed from the launch memory.
-/
import proofs.«115371_j15642270892348_1_alg».proof.Proof.KernelRun
import proofs.«115371_j15642270892348_1_alg».proof.Proof.NodeArray
import proofs.«115371_j15642270892348_1_alg».proof.Proof.EdgeArray
import proofs.«115371_j15642270892348_1_alg».proof.Proof.Boundary

noncomputable section

namespace Cert.KernelIdeal.Results

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The node result as a function of the launch memory. -/
def nodeOut (c : Dev nD) : S50000x96.Idx → EReal :=
  NodeValue.nodeArr (m ((c.tc : Thread nD τ).loc main_arg0))
    (Boundary.aggregate (m ((c.tc : Thread nD τ).loc main_arg1)) (m ((c.tc : Thread nD τ).loc main_arg2)))
    (m ((c.tc : Thread nD τ).loc main_arg3)) (shapeCast S1x96 (m ((c.tc : Thread nD τ).loc main_arg4)) Facts₀.shapeCasts_S96_S1x96)
    (m ((c.tc : Thread nD τ).loc main_arg5)) (shapeCast S1x96 (m ((c.tc : Thread nD τ).loc main_arg6)) Facts₀.shapeCasts_S96_S1x96)

/-- The edge result as a function of the launch memory. -/
def edgeOut (c : Dev nD) : S800000x96.Idx → EReal :=
  EdgeValue.edgeArr
    (Boundary.rowsAt (m ((c.tc : Thread nD τ).loc main_arg0)) (Boundary.endpoints0 (m ((c.tc : Thread nD τ).loc main_arg1))))
    (Boundary.rowsAt (m ((c.tc : Thread nD τ).loc main_arg0)) (Boundary.endpoints1 (m ((c.tc : Thread nD τ).loc main_arg1))))
    (m ((c.tc : Thread nD τ).loc main_arg2)) (m ((c.tc : Thread nD τ).loc main_arg7))
    (shapeCast S1x96 (m ((c.tc : Thread nD τ).loc main_arg8)) Facts₀.shapeCasts_S96_S1x96)
    (m ((c.tc : Thread nD τ).loc main_arg9)) (shapeCast S1x96 (m ((c.tc : Thread nD τ).loc main_arg10)) Facts₀.shapeCasts_S96_S1x96)

/-- The node result at the last boundary. -/
theorem node_final (c : Dev nD) : W4 m ρ c (Proc.devRef .tc main_v23) = nodeOut m c := by
  rw [Boundary.W4_v23, NodeValue.final (V1 m ρ) c, Boundary.V1_arg0, Boundary.V1_v6, Boundary.V1_arg3, Boundary.V1_v21, Boundary.V1_arg5,
    Boundary.V1_v22]
  rfl

/-- The edge result at the last boundary. -/
theorem edge_final (c : Dev nD) : W4 m ρ c (Proc.devRef .tc main_v26) = edgeOut m c := by
  rw [Boundary.W4_v26, EdgeValue.final (V3 m ρ) c, Boundary.V3_v13, Boundary.V3_v20, Boundary.V3_arg2, Boundary.V3_arg7, Boundary.V3_v24,
    Boundary.V3_arg9, Boundary.V3_v25]
  rfl

/-- The run: the three results (the node result, the edge list handed back, the edge result) and the arguments unchanged. -/
theorem run : θ_run defs (onTc (τ := τ) (main (F := Ideal))) ⟨m, fun _ => 0, ρ⟩ (fun r => ∀ c : Dev nD,
      r.2.mem ((c.tc : Thread nD τ).loc main_v23) = nodeOut m c
      ∧ r.2.mem ((c.tc : Thread nD τ).loc main_arg1) = m ((c.tc : Thread nD τ).loc main_arg1)
      ∧ r.2.mem ((c.tc : Thread nD τ).loc main_v26) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (node_final m ρ c), (h c).2.2.2.1, (h c).2.1.trans (edge_final m ρ c), (h c).2.2⟩)
    (Named.run_named (F := Ideal) m ρ)

end Cert.KernelIdeal.Results

end
-- ==== Proof.ConcatBands.lean ====
/-
  Rows laid side by side, read at an entry.

  Two (three) arrays of M rows of 96 entries joined along the feature axis into M rows of 192 (288) entries hold, at
  (p, j), the entry of the piece whose band of 96 columns contains j, at column j less the bands before it: the joined
  row p is the rows p of the pieces side by side.
-/
import proofs.«115371_j15642270892348_1_alg».proof.Proof.Spec
import Idealize.ShloMosaic.Lib.Pipeline.Value
import Idealize.ShloMosaic.Lib.ValueIdx

noncomputable section

namespace Cert.ConcatBands

open Idealize.ShloMosaic Idealize.ShloMosaic.ValueIdx

variable {M : Nat}

theorem pair_apply (a b : (⟨2, ![M, 96]⟩ : Shape).Idx → EReal)
    (h : Shape.Concatenates [(⟨2, ![M, 96]⟩ : Shape), ⟨2, ![M, 96]⟩] (⟨2, ![M, 192]⟩ : Shape) 1) (p : Fin M) (j : Fin 192) :
    concatenate (⟨2, ![M, 192]⟩ : Shape) 1 [⟨⟨2, ![M, 96]⟩, a⟩, ⟨⟨2, ![M, 96]⟩, b⟩] h (ix2 p j)
      = Spec.cat2 (fun j => a (ix2 p j)) (fun j => b (ix2 p j)) j := by
  unfold Spec.cat2
  by_cases hj : j.val < 96
  · rw [dif_pos hj]
    exact concatenate_pair_apply_left 1 a b h (ix2 p j) rfl (ix2 p ⟨j.val, hj⟩) fun d => match d with
      | ⟨0, _⟩ => rfl
      | ⟨1, _⟩ => rfl
  · rw [dif_neg hj]
    exact concatenate_pair_apply_right 1 a b h (ix2 p j) rfl rfl (ix2 p ⟨j.val - 96, by have := j.isLt; omega⟩)
      (fun d hd => match d, hd with
        | ⟨0, _⟩, _ => rfl
        | ⟨1, _⟩, hd => absurd rfl hd)
      (by show j.val - 96 + 96 = j.val; omega)

theorem triple_apply (a b c : (⟨2, ![M, 96]⟩ : Shape).Idx → EReal)
    (h : Shape.Concatenates [(⟨2, ![M, 96]⟩ : Shape), ⟨2, ![M, 96]⟩, ⟨2, ![M, 96]⟩] (⟨2, ![M, 288]⟩ : Shape) 1) (p : Fin M) (j : Fin 288) :
    concatenate (⟨2, ![M, 288]⟩ : Shape) 1 [⟨⟨2, ![M, 96]⟩, a⟩, ⟨⟨2, ![M, 96]⟩, b⟩, ⟨⟨2, ![M, 96]⟩, c⟩] h (ix2 p j)
      = Spec.cat3 (fun j => a (ix2 p j)) (fun j => b (ix2 p j)) (fun j => c (ix2 p j)) j := by
  unfold Spec.cat3
  by_cases hj : j.val < 96
  · rw [dif_pos hj]
    exact concatenate_apply_piece 1 ([⟨⟨2, ![M, 96]⟩, a⟩, ⟨⟨2, ![M, 96]⟩, b⟩, ⟨⟨2, ![M, 96]⟩, c⟩] : List ((s : Shape) × (s.Idx → EReal))) h (ix2 p j) 0 (by show 0 < 3; omega) ⟨2, ![M, 96]⟩ a rfl rfl 0 rfl (ix2 p ⟨j.val, hj⟩)
      (fun d hd => match d, hd with
        | ⟨0, _⟩, _ => rfl
        | ⟨1, _⟩, hd => absurd rfl hd)
      (by show 0 + j.val = j.val; omega)
  · rw [dif_neg hj]
    by_cases hj2 : j.val < 192
    · rw [dif_pos hj2]
      exact concatenate_apply_piece 1 ([⟨⟨2, ![M, 96]⟩, a⟩, ⟨⟨2, ![M, 96]⟩, b⟩, ⟨⟨2, ![M, 96]⟩, c⟩] : List ((s : Shape) × (s.Idx → EReal))) h (ix2 p j) 1 (by show 1 < 3; omega) ⟨2, ![M, 96]⟩ b rfl rfl 96 rfl (ix2 p ⟨j.val - 96, by omega⟩)
        (fun d hd => match d, hd with
          | ⟨0, _⟩, _ => rfl
          | ⟨1, _⟩, hd => absurd rfl hd)
        (by show 96 + (j.val - 96) = j.val; omega)
    · rw [dif_neg hj2]
      exact concatenate_apply_piece 1 ([⟨⟨2, ![M, 96]⟩, a⟩, ⟨⟨2, ![M, 96]⟩, b⟩, ⟨⟨2, ![M, 96]⟩, c⟩] : List ((s : Shape) × (s.Idx → EReal))) h (ix2 p j) 2 (by show 2 < 3; omega) ⟨2, ![M, 96]⟩ c rfl rfl 192 rfl (ix2 p ⟨j.val - 192, by have := j.isLt; omega⟩)
        (fun d hd => match d, hd with
          | ⟨0, _⟩, _ => rfl
          | ⟨1, _⟩, hd => absurd rfl hd)
        (by show 192 + (j.val - 192) = j.val; omega)

end Cert.ConcatBands

end
-- ==== Proof.RefValue.lean ====
/-
  The reference's two results at an entry.

  The node result at (p, q): the joined row (row p of x beside row p of the aggregate) against the whole first weight
  matrix, a sum over 192 features, the bias added, rectified, against the second weight matrix, the second bias added.
  The edge result at (e, q): the same over the joined row of 288 features (the gathered source row, the gathered
  destination row, the edge's own features). The aggregate and the two gathers are carried as they are printed.
-/
import proofs.«115371_j15642270892348_1_alg».proof.Proof.Gen.ReferenceIdeal.Read
import proofs.«115371_j15642270892348_1_alg».proof.Proof.Spec
import proofs.«115371_j15642270892348_1_alg».proof.Proof.LibPlainDot
import proofs.«115371_j15642270892348_1_alg».proof.Proof.LibRowBias
import proofs.«115371_j15642270892348_1_alg».proof.Proof.ConcatBands
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

theorem node_apply (x0 : FVec Ideal S50000x96 .f32) (x1 : IVec S2x800000 32) (x2 : FVec Ideal S800000x96 .f32)
    (x3 : FVec Ideal S192x96 .f32) (x4 : FVec Ideal S96 .f32) (x5 : FVec Ideal S96x96 .f32) (x6 : FVec Ideal S96 .f32)
    (p : Fin 50000) (q : Fin 96) :
    val_main_v14 (F := Ideal) x0 x1 x2 x3 x4 x5 x6 (ix2 p q)
      = Spec.nodeJoined (Ideal.ofBits .f32 0x00000000#32) (fun j => x0 (ix2 p j)) (fun j => val_main_v4 (F := Ideal) x1 x2 (ix2 p j))
          (fun j k => x3 (ix2 j k)) (fun k => x4 (ix1 k)) (fun k q => x5 (ix2 k q)) (fun k => x6 (ix1 k)) q := by
  unfold val_main_v14 val_main_v13 val_main_v12 val_main_v11 val_main_v10 val_main_call0_v0 val_main_call0_cst val_main_v9 val_main_v8
    val_main_v7 val_main_v6 val_main_v5 Spec.nodeJoined Spec.layer2
  refine congrArg₂ (· + ·) ?_ ?_
  · refine (Cert.PlainDot.dotGeneral_apply (M := 50000) (K := 96) (N := 96) none .single _ _ p q).trans ?_
    refine Finset.sum_congr rfl fun k _ => ?_
    refine congrArg (· * x5 (ix2 k q)) ?_
    refine congrArg₂ max ?_ ?_
    · refine congrArg₂ (· + ·) ?_ ?_
      · refine (Cert.PlainDot.dotGeneral_apply (M := 50000) (K := 192) (N := 96) none .single _ _ p k).trans ?_
        refine Finset.sum_congr rfl fun j _ => ?_
        exact congrArg (· * x3 (ix2 j k)) (Cert.ConcatBands.pair_apply (M := 50000) x0 (val_main_v4 (F := Ideal) x1 x2) _ p j)
      · exact Cert.RowBias.hostRows_apply x4 bcast_S96_S1x96_1 bcast_S1x96_S50000x96_0_1 p k
    · exact Cert.RowBias.splat_apply _ bcast_S_S50000x96 (ix2 p k)
  · exact Cert.RowBias.hostRows_apply x6 bcast_S96_S1x96_1 bcast_S1x96_S50000x96_0_1 p q

theorem edge_apply (x0 : FVec Ideal S50000x96 .f32) (x1 : IVec S2x800000 32) (x2 : FVec Ideal S800000x96 .f32)
    (x7 : FVec Ideal S288x96 .f32) (x8 : FVec Ideal S96 .f32) (x9 : FVec Ideal S96x96 .f32) (x10 : FVec Ideal S96 .f32)
    (p : Fin 800000) (q : Fin 96) :
    val_main_v42 (F := Ideal) x0 x1 x2 x7 x8 x9 x10 (ix2 p q)
      = Spec.edgeJoined (Ideal.ofBits .f32 0x00000000#32) (fun j => val_main_v23 (F := Ideal) x0 x1 (ix2 p j))
          (fun j => val_main_v32 (F := Ideal) x0 x1 (ix2 p j)) (fun j => x2 (ix2 p j))
          (fun j k => x7 (ix2 j k)) (fun k => x8 (ix1 k)) (fun k q => x9 (ix2 k q)) (fun k => x10 (ix1 k)) q := by
  unfold val_main_v42 val_main_v41 val_main_v40 val_main_v39 val_main_v38 val_main_call1_v0 val_main_call1_cst val_main_v37 val_main_v36
    val_main_v35 val_main_v34 val_main_v33 Spec.edgeJoined Spec.layer2
  refine congrArg₂ (· + ·) ?_ ?_
  · refine (Cert.PlainDot.dotGeneral_apply (M := 800000) (K := 96) (N := 96) none .single _ _ p q).trans ?_
    refine Finset.sum_congr rfl fun k _ => ?_
    refine congrArg (· * x9 (ix2 k q)) ?_
    refine congrArg₂ max ?_ ?_
    · refine congrArg₂ (· + ·) ?_ ?_
      · refine (Cert.PlainDot.dotGeneral_apply (M := 800000) (K := 288) (N := 96) none .single _ _ p k).trans ?_
        refine Finset.sum_congr rfl fun j _ => ?_
        exact congrArg (· * x7 (ix2 j k)) (Cert.ConcatBands.triple_apply (M := 800000) (val_main_v23 (F := Ideal) x0 x1)
          (val_main_v32 (F := Ideal) x0 x1) x2 _ p j)
      · exact Cert.RowBias.hostRows_apply x8 bcast_S96_S1x96_1 bcast_S1x96_S800000x96_0_1 p k
    · exact Cert.RowBias.splat_apply _ bcast_S_S800000x96 (ix2 p k)
  · exact Cert.RowBias.hostRows_apply x10 bcast_S96_S1x96_1 bcast_S1x96_S800000x96_0_1 p q

end Cert.ReferenceIdeal.RefValue

end
-- ==== Proof.Bridge.lean ====
/-
  The reference's two results are the kernel program's two result arrays, as functions of the same seven arguments.

  Both programs compute the aggregate and the two gathers by the same host operations of x, the edge list and the edge
  features; those three arrays are carried as they are. Entry by entry the reference's first layer on the joined row
  against the whole first weight matrix is the kernel's band-by-band sum (a finite sum split over the bands of 96), and a
  bias vector laid out as a one-row matrix holds the vector's entries.
-/
import proofs.«115371_j15642270892348_1_alg».proof.Proof.RefValue
import proofs.«115371_j15642270892348_1_alg».proof.Proof.NodeArray
import proofs.«115371_j15642270892348_1_alg».proof.Proof.EdgeArray
import proofs.«115371_j15642270892348_1_alg».proof.Proof.Boundary

noncomputable section

namespace Cert.Bridge

open Idealize.ShloMosaic Idealize.ShloMosaic.ValueIdx
open Cert.KernelIdeal Cert.KernelIdeal.Gen

/-- The reference's aggregate is the kernel program's: the same operations of the same arrays. -/
theorem agg_eq (x1 : (⟨S2x800000, .i32⟩ : BufTy).Contents (Elt Ideal)) (x2 : (⟨S800000x96, .f32⟩ : BufTy).Contents (Elt Ideal)) :
    Cert.ReferenceIdeal.Read.val_main_v4 (F := Ideal) x1 x2 = Boundary.aggregate x1 x2 := rfl

/-- The reference's gathered source rows are the kernel program's. -/
theorem src_eq (x0 : (⟨S50000x96, .f32⟩ : BufTy).Contents (Elt Ideal)) (x1 : (⟨S2x800000, .i32⟩ : BufTy).Contents (Elt Ideal)) :
    Cert.ReferenceIdeal.Read.val_main_v23 (F := Ideal) x0 x1 = Boundary.rowsAt x0 (Boundary.endpoints0 x1) := rfl

/-- The reference's gathered destination rows are the kernel program's. -/
theorem dst_eq (x0 : (⟨S50000x96, .f32⟩ : BufTy).Contents (Elt Ideal)) (x1 : (⟨S2x800000, .i32⟩ : BufTy).Contents (Elt Ideal)) :
    Cert.ReferenceIdeal.Read.val_main_v32 (F := Ideal) x0 x1 = Boundary.rowsAt x0 (Boundary.endpoints1 x1) := rfl

/-- The node result. -/
theorem node_eq (x0 : (⟨S50000x96, .f32⟩ : BufTy).Contents (Elt Ideal)) (x1 : (⟨S2x800000, .i32⟩ : BufTy).Contents (Elt Ideal))
    (x2 : (⟨S800000x96, .f32⟩ : BufTy).Contents (Elt Ideal)) (x3 : (⟨S192x96, .f32⟩ : BufTy).Contents (Elt Ideal))
    (x4 : (⟨S96, .f32⟩ : BufTy).Contents (Elt Ideal)) (x5 : (⟨S96x96, .f32⟩ : BufTy).Contents (Elt Ideal))
    (x6 : (⟨S96, .f32⟩ : BufTy).Contents (Elt Ideal)) :
    Cert.ReferenceIdeal.Read.val_main_v14 (F := Ideal) x0 x1 x2 x3 x4 x5 x6
      = NodeValue.nodeArr x0 (Boundary.aggregate x1 x2) x3 (shapeCast S1x96 x4 Facts₀.shapeCasts_S96_S1x96) x5
          (shapeCast S1x96 x6 Facts₀.shapeCasts_S96_S1x96) := by
  funext i
  obtain ⟨p, q, rfl⟩ : ∃ (p : Fin 50000) (q : Fin 96), i = ix2 p q := ⟨i 0, i 1, eq_ix2 i⟩
  refine (Cert.ReferenceIdeal.RefValue.node_apply x0 x1 x2 x3 x4 x5 x6 p q).trans ?_
  refine (Spec.nodeJoined_eq_bands _ _ _ _ _ _ _ q).trans ?_
  refine Eq.trans ?_ (NodeValue.nodeArr_at x0 (Boundary.aggregate x1 x2) x3 (shapeCast S1x96 x4 Facts₀.shapeCasts_S96_S1x96) x5
    (shapeCast S1x96 x6 Facts₀.shapeCasts_S96_S1x96) (ix2 p q) p q rfl rfl).symm
  exact Spec.nodeBands_congr q (fun _ => rfl) (fun j => congrFun (agg_eq x1 x2) (ix2 p j)) (fun _ _ => rfl) (fun _ _ => rfl)
    (fun k => (Cert.RowBias.ofVec_apply x4 Facts₀.shapeCasts_S96_S1x96 k).symm) (fun _ _ => rfl)
    (fun k => (Cert.RowBias.ofVec_apply x6 Facts₀.shapeCasts_S96_S1x96 k).symm)

/-- The edge result. -/
theorem edge_eq (x0 : (⟨S50000x96, .f32⟩ : BufTy).Contents (Elt Ideal)) (x1 : (⟨S2x800000, .i32⟩ : BufTy).Contents (Elt Ideal))
    (x2 : (⟨S800000x96, .f32⟩ : BufTy).Contents (Elt Ideal)) (x7 : (⟨S288x96, .f32⟩ : BufTy).Contents (Elt Ideal))
    (x8 : (⟨S96, .f32⟩ : BufTy).Contents (Elt Ideal)) (x9 : (⟨S96x96, .f32⟩ : BufTy).Contents (Elt Ideal))
    (x10 : (⟨S96, .f32⟩ : BufTy).Contents (Elt Ideal)) :
    Cert.ReferenceIdeal.Read.val_main_v42 (F := Ideal) x0 x1 x2 x7 x8 x9 x10
      = EdgeValue.edgeArr (Boundary.rowsAt x0 (Boundary.endpoints0 x1)) (Boundary.rowsAt x0 (Boundary.endpoints1 x1)) x2 x7
          (shapeCast S1x96 x8 Facts₀.shapeCasts_S96_S1x96) x9 (shapeCast S1x96 x10 Facts₀.shapeCasts_S96_S1x96) := by
  funext i
  obtain ⟨p, q, rfl⟩ : ∃ (p : Fin 800000) (q : Fin 96), i = ix2 p q := ⟨i 0, i 1, eq_ix2 i⟩
  refine (Cert.ReferenceIdeal.RefValue.edge_apply x0 x1 x2 x7 x8 x9 x10 p q).trans ?_
  refine (Spec.edgeJoined_eq_bands _ _ _ _ _ _ _ _ q).trans ?_
  refine Eq.trans ?_ (EdgeValue.edgeArr_at (Boundary.rowsAt x0 (Boundary.endpoints0 x1)) (Boundary.rowsAt x0 (Boundary.endpoints1 x1)) x2 x7
    (shapeCast S1x96 x8 Facts₀.shapeCasts_S96_S1x96) x9 (shapeCast S1x96 x10 Facts₀.shapeCasts_S96_S1x96) (ix2 p q) p q rfl rfl).symm
  exact Spec.edgeBands_congr q (fun j => congrFun (src_eq x0 x1) (ix2 p j)) (fun j => congrFun (dst_eq x0 x1) (ix2 p j)) (fun _ => rfl)
    (fun _ _ => rfl) (fun _ _ => rfl) (fun _ _ => rfl)
    (fun k => (Cert.RowBias.ofVec_apply x8 Facts₀.shapeCasts_S96_S1x96 k).symm) (fun _ _ => rfl)
    (fun k => (Cert.RowBias.ofVec_apply x10 Facts₀.shapeCasts_S96_S1x96 k).symm)

end Cert.Bridge

end
-- ==== Proof.lean ====
/-
  A message-passing layer on a graph of 50000 nodes and 800000 edges, 96 features each: the kernel program against its
  jnp reference, over the extended reals.

  Both programs sum the edge features into their destination nodes, gather each edge's source and destination rows of x,
  and apply two two-layer perceptrons with a rectifier between the layers: one to every node (its own features beside the
  aggregate), one to every edge (source, destination and edge features side by side). The reference joins the pieces into
  one row of 192 (288) features and multiplies it with the whole first weight matrix; the kernel program multiplies each
  piece with its band of 96 rows of that matrix, in two Pallas kernels over blocks of 5000 nodes and of 8000 edges, and adds
  the products. A finite sum over the joined axis is the sum of the sums over its pieces — associativity and
  commutativity of addition, which hold on every extended real — so the two results agree entry by entry, whatever the
  inputs; a change of float format is the identity on the extended reals. The ideal pass rewrote nothing, so the kernel
  program's idealization is its own text.
-/
import proofs.«115371_j15642270892348_1_alg».proof.Defs
import proofs.«115371_j15642270892348_1_alg».proof.Proof.Gen.Kernel
import proofs.«115371_j15642270892348_1_alg».proof.Proof.Gen.Kernel.Skeleton
import proofs.«115371_j15642270892348_1_alg».proof.Proof.Gen.Kernel.Launch
import proofs.«115371_j15642270892348_1_alg».proof.Proof.Gen.Kernel.Points
import proofs.«115371_j15642270892348_1_alg».proof.Proof.Gen.Kernel.Frame
import proofs.«115371_j15642270892348_1_alg».proof.Proof.Gen.KernelIdeal
import proofs.«115371_j15642270892348_1_alg».proof.Proof.Gen.KernelIdeal.Skeleton
import proofs.«115371_j15642270892348_1_alg».proof.Proof.Gen.KernelIdeal.Launch
import proofs.«115371_j15642270892348_1_alg».proof.Proof.Gen.KernelIdeal.Points
import proofs.«115371_j15642270892348_1_alg».proof.Proof.Gen.KernelIdeal.Frame
import proofs.«115371_j15642270892348_1_alg».proof.Proof.Gen.ReferenceIdeal
import proofs.«115371_j15642270892348_1_alg».proof.Proof.Gen.Pre_finite_inputs
import proofs.«115371_j15642270892348_1_alg».proof.Proof.Gen.ReferenceIdeal.Run
import proofs.«115371_j15642270892348_1_alg».proof.Proof.Gen.ReferenceIdeal.Read
import proofs.«115371_j15642270892348_1_alg».proof.Proof.KernelValue
import proofs.«115371_j15642270892348_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories that agree on the eleven arguments both programs end with the node update, the edge list and the edge
    update of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Results.nodeOut m c, fun c => m ((c.tc : Thread Cert.KernelIdeal.nD Cert.KernelIdeal.τ).loc Cert.KernelIdeal.main_arg1),
    fun c => Cert.KernelIdeal.Results.edgeOut m c, Cert.KernelIdeal.Results.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, -⟩ := hagree c
    rw [a0, a1, a2, a3, a4, a5, a6]
    exact (Cert.ReferenceIdeal.Read.val_main_v14_eq _ _ _ _ _ _ _).trans (Cert.Bridge.node_eq _ _ _ _ _ _ _)
  · exact (hagree c).2.1
  · obtain ⟨a0, a1, a2, -, -, -, -, a7, a8, a9, a10⟩ := hagree c
    rw [a0, a1, a2, a7, a8, a9, a10]
    exact (Cert.ReferenceIdeal.Read.val_main_v42_eq _ _ _ _ _ _ _).trans (Cert.Bridge.edge_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
